-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1024x256 : Shape := ⟨2, ![1024, 256]⟩
abbrev S1024 : Shape := ⟨1, ![1024]⟩
abbrev S32x1024 : Shape := ⟨2, ![32, 1024]⟩
abbrev S32 : Shape := ⟨1, ![32]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S32x1024 : S_.BroadcastsInDim S32x1024 (![] : Fin 0 → Fin S32x1024.rank)
  reducesTo_S32x1024_S_d0_1 : S32x1024.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v47 : IVec S_ 1) (main_v49 : IVec S1024 1) (main_c_19 : IVec S_ 1) : IVec S_ 1 :=
  let main_v50 : IVec S_ 1 := (fun x v => Host.reduce IntOp.andi x v reducesTo_S1024_S_d0 h_S_) main_v49 main_c_19
  let main_v51 : IVec S_ 1 := andi main_v47 main_v50
  main_v51

def fn_part2 {F : FTy → Type} [FloatOps F] (main_arg2 : FVec F S1024 .f32) (main_arg6 : FVec F S1024 .f32) (main_arg7 : FVec F S32x1024 .f32) (main_arg8 : FVec F S32 .f32) (main_v33 : IVec S_ 1) : IVec S_ 1 :=
  let main_v34 : FVec F S32x1024 .f32 := Host.absf main_arg7
  let main_cst_12 : FVec F S_ .f32 := constant S_ .f32 0x7F800000#32
  let main_v35 : FVec F S32x1024 .f32 := broadcastInDim S32x1024 ![] bcast_S_S32x1024 main_cst_12
  let main_v36 : IVec S32x1024 1 := cmpf .olt main_v34 main_v35
  let main_c_13 : IVec S_ 1 := constantI S_ 1 1#1
  let main_v37 : IVec S_ 1 := (fun x v => Host.reduce IntOp.andi x v reducesTo_S32x1024_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_cst_16 : FVec F S_ .f32 := constant S_ .f32 0x00000000#32
  let main_v44 : FVec F S1024 .f32 := broadcastInDim S1024 ![] bcast_S_S1024 main_cst_16
  let main_v45 : IVec S1024 1 := cmpf .une main_arg2 main_v44
  let main_c_17 : IVec S_ 1 := constantI S_ 1 1#1
  let main_v46 : IVec S_ 1 := (fun x v => Host.reduce IntOp.andi x v reducesTo_S1024_S_d0 h_S_) main_v45 main_c_17
  let main_v47 : IVec S_ 1 := andi main_v43 main_v46
  let main_cst_18 : FVec F S_ .f32 := constant S_ .f32 0x00000000#32
  let main_v48 : FVec F S1024 .f32 := broadcastInDim S1024 ![] bcast_S_S1024 main_cst_18
  let main_v49 : IVec S1024 1 := cmpf .une main_arg6 main_v48
  let main_c_19 : IVec S_ 1 := constantI S_ 1 1#1
  fn_part3 (F := F) main_v47 main_v49 main_c_19

def fn_part1 {F : FTy → Type} [FloatOps F] (main_arg2 : FVec F S1024 .f32) (main_arg4 : FVec F S32 .f32) (main_arg5 : FVec F S1024x256 .f32) (main_arg6 : FVec F S1024 .f32) (main_arg7 : FVec F S32x1024 .f32) (main_arg8 : FVec F S32 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg2 main_arg6 main_arg7 main_arg8 main_v33

def fn {F : FTy → Type} [FloatOps F] (main_arg0 : FVec F S32768x256 .f32) (main_arg1 : FVec F S1024x256 .f32) (main_arg2 : FVec F S1024 .f32) (main_arg3 : FVec F S32x1024 .f32) (main_arg4 : FVec F S32 .f32) (main_arg5 : FVec F S1024x256 .f32) (main_arg6 : FVec F S1024 .f32) (main_arg7 : FVec F S32x1024 .f32) (main_arg8 : FVec F S32 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32x1024 .f32 := Host.absf main_arg3
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg2 main_arg4 main_arg5 main_arg6 main_arg7 main_arg8 main_v13 main_v16
-- ==== Kernel.lean ====
abbrev S32768x256 : Shape := ⟨2, ![32768, 256]⟩
abbrev S1024x256 : Shape := ⟨2, ![1024, 256]⟩
abbrev S1024 : Shape := ⟨1, ![1024]⟩
abbrev S32x1024 : Shape := ⟨2, ![32, 1024]⟩
abbrev S32 : Shape := ⟨1, ![32]⟩
abbrev S256x1024 : Shape := ⟨2, ![256, 1024]⟩
abbrev S1024x32 : Shape := ⟨2, ![1024, 32]⟩
abbrev S_ : Shape := ⟨0, ![]⟩
abbrev S1x1024 : Shape := ⟨2, ![1, 1024]⟩
abbrev S1x32 : Shape := ⟨2, ![1, 32]⟩
abbrev S32768x64 : Shape := ⟨2, ![32768, 64]⟩
abbrev S1024x64 : Shape := ⟨2, ![1024, 64]⟩
abbrev S1024x1 : Shape := ⟨2, ![1024, 1]⟩
abbrev S1024x1024 : Shape := ⟨2, ![1024, 1024]⟩

abbrev nBuf : Space → Nat
  | .hbm => 44
  | .vmem => 14
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S1024, .f32⟩
  | .hbm, ⟨3, _⟩ => ⟨S32x1024, .f32⟩
  | .hbm, ⟨4, _⟩ => ⟨S32, .f32⟩
  | .hbm, ⟨5, _⟩ => ⟨S1024x256, .f32⟩
  | .hbm, ⟨6, _⟩ => ⟨S1024, .f32⟩
  | .hbm, ⟨7, _⟩ => ⟨S32x1024, .f32⟩
  | .hbm, ⟨8, _⟩ => ⟨S32, .f32⟩
  | .hbm, ⟨9, _⟩ => ⟨S1024x256, .bf16⟩
  | .hbm, ⟨10, _⟩ => ⟨S256x1024, .bf16⟩
  | .hbm, ⟨11, _⟩ => ⟨S1024x256, .bf16⟩
  | .hbm, ⟨12, _⟩ => ⟨S256x1024, .bf16⟩
  | .hbm, ⟨13, _⟩ => ⟨S32x1024, .bf16⟩
  | .hbm, ⟨14, _⟩ => ⟨S1024x32, .bf16⟩
  | .hbm, ⟨15, _⟩ => ⟨S32x1024, .bf16⟩
  | .hbm, ⟨16, _⟩ => ⟨S1024x32, .bf16⟩
  | .hbm, ⟨17, _⟩ => ⟨S1024x256, .f32⟩
  | .hbm, ⟨18, _⟩ => ⟨S_, .f32⟩
  | .hbm, ⟨19, _⟩ => ⟨S1024, .f32⟩
  | .hbm, ⟨20, _⟩ => ⟨S1x1024, .f32⟩
  | .hbm, ⟨21, _⟩ => ⟨S1024x256, .f32⟩
  | .hbm, ⟨22, _⟩ => ⟨S_, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S1x32, .f32⟩
  | .hbm, ⟨42, _⟩ => ⟨S1x32, .f32⟩
  | .hbm, ⟨43, _⟩ => ⟨S32768x64, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1x1024, .f32⟩
  | .local _ .vmem, ⟨4, _⟩ => ⟨S1x1024, .f32⟩
  | .local _ .vmem, ⟨5, _⟩ => ⟨S1024x32, .bf16⟩
  | .local _ .vmem, ⟨6, _⟩ => ⟨S1x32, .f32⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x32, .bf16⟩
  | .local _ .vmem, ⟨11, _⟩ => ⟨S1x32, .f32⟩
  | .local _ .vmem, ⟨12, _⟩ => ⟨S1024x64, .f32⟩
  | .local _ .vmem, ⟨13, _⟩ => ⟨S1024x64, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S1024x256_S256x1024_1_0 : S1024x256.Transposes [1, 0] S256x1024
  transposes_S32x1024_S1024x32_1_0 : S32x1024.Transposes [1, 0] S1024x32
  reducesTo_S1024x256_S1024_d1 : S1024x256.ReducesTo [1] S1024
  h_S_ : 0 < S_.numel
  bcast_S1024_S1x1024_1 : S1024.BroadcastsInDim S1x1024 (![1] : Fin 1 → Fin S1x1024.rank)
  bcast_S_S1024 : S_.BroadcastsInDim S1024 (![] : Fin 0 → Fin S1024.rank)
  bcast_S32_S1x32_1 : S32.BroadcastsInDim S1x32 (![1] : Fin 1 → Fin S1x32.rank)
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  concatenates_S1024x32_S1024x32_S1024x64_d1 : Shape.Concatenates [S1024x32, S1024x32] S1024x64 1
  inb_S1024x64_S1024x64_0_0 : ∀ a, (![0, 0] : Fin 2 → Nat) a + S1024x64.size a ≤ S1024x64.size a
  h_S1024x64 : 0 < S1024x64.numel
  dot_S1024x256_S256x1024_S1024x1024_1_0_0_1_n_n_wf : DotDims.WF S1024x256 S256x1024 S1024x1024 [1] [0] [0] [1] [] []
  dot_S1024x1024_S1024x32_S1024x32_1_0_0_1_n_n_wf : DotDims.WF S1024x1024 S1024x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x32.size a ≤ S1024x32.size a
  hwx0_4 : ∀ i : grid0.Coords, EltTy.bits .bf16 = 32 ∨ (Rect.block (s := S1024x32) S1024x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x1024.size a
  hwx0_6 : ∀ i : grid0.Coords, EltTy.bits .bf16 = 32 ∨ (Rect.block (s := S256x1024) S256x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x32.size a ≤ S1024x32.size a
  hwx0_9 : ∀ i : grid0.Coords, EltTy.bits .bf16 = 32 ∨ (Rect.block (s := S1024x32) S1024x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S32768x64.size a
  hwx0_11 : ∀ i : grid0.Coords, EltTy.bits .f32 = 32 ∨ (Rect.block (s := S32768x64) S1024x64.size (cc0_transform_11 i) (hinb0_11 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1024x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v27) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x256 : Shape := ⟨2, ![32768, 256]⟩
abbrev S1024x256 : Shape := ⟨2, ![1024, 256]⟩
abbrev S1024 : Shape := ⟨1, ![1024]⟩
abbrev S32x1024 : Shape := ⟨2, ![32, 1024]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S256x1024 : Shape := ⟨2, ![256, 1024]⟩
abbrev S32768x1024 : Shape := ⟨2, ![32768, 1024]⟩
abbrev S1024x32 : Shape := ⟨2, ![1024, 32]⟩
abbrev S32768x32 : Shape := ⟨2, ![32768, 32]⟩
abbrev S1x32 : Shape := ⟨2, ![1, 32]⟩
abbrev S32768x64 : Shape := ⟨2, ![32768, 64]⟩

abbrev nBuf : Space → Nat
  | .hbm => 81
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S1024x256, .f32⟩
  | .hbm, ⟨2, _⟩ => ⟨S1024, .f32⟩
  | .hbm, ⟨3, _⟩ => ⟨S32x1024, .f32⟩
  | .hbm, ⟨4, _⟩ => ⟨S32, .f32⟩
  | .hbm, ⟨5, _⟩ => ⟨S1024x256, .f32⟩
  | .hbm, ⟨6, _⟩ => ⟨S1024, .f32⟩
  | .hbm, ⟨7, _⟩ => ⟨S32x1024, .f32⟩
  | .hbm, ⟨8, _⟩ => ⟨S32, .f32⟩
  | .hbm, ⟨9, _⟩ => ⟨S32768x256, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S1024x256, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S256x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S1024x32, .f32⟩
  | .hbm, ⟨36, _⟩ => ⟨S32768x32, .f32⟩
  | .hbm, ⟨37, _⟩ => ⟨S1x32, .f32⟩
  | .hbm, ⟨38, _⟩ => ⟨S32768x32, .f32⟩
  | .hbm, ⟨39, _⟩ => ⟨S32768x32, .f32⟩
  | .hbm, ⟨40, _⟩ => ⟨S32768x256, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S1024x256, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S256x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S1024x32, .f32⟩
  | .hbm, ⟨67, _⟩ => ⟨S32768x32, .f32⟩
  | .hbm, ⟨68, _⟩ => ⟨S1x32, .f32⟩
  | .hbm, ⟨69, _⟩ => ⟨S32768x32, .f32⟩
  | .hbm, ⟨70, _⟩ => ⟨S32768x32, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S32768x32, .f32⟩
  | .hbm, ⟨75, _⟩ => ⟨S32768x32, .f32⟩
  | .hbm, ⟨76, _⟩ => ⟨S_, .f32⟩
  | .hbm, ⟨77, _⟩ => ⟨S32768x32, .f32⟩
  | .hbm, ⟨78, _⟩ => ⟨S32768x32, .f32⟩
  | .hbm, ⟨79, _⟩ => ⟨S32768x32, .f32⟩
  | .hbm, ⟨80, _⟩ => ⟨S32768x64, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_cst_8 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S1024x256_S1024_d1 : S1024x256.ReducesTo [1] S1024
  bcast_S1024_S1x1024_1 : S1024.BroadcastsInDim S1x1024 (![1] : Fin 1 → Fin S1x1024.rank)
  transposes_S1024x256_S256x1024_1_0 : S1024x256.Transposes [1, 0] S256x1024
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  bcast_S_S1x1024 : S_.BroadcastsInDim S1x1024 (![] : Fin 0 → Fin S1x1024.rank)
  transposes_S32x1024_S1024x32_1_0 : S32x1024.Transposes [1, 0] S1024x32
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  bcast_S_S32768x32 : S_.BroadcastsInDim S32768x32 (![] : Fin 0 → Fin S32768x32.rank)
  concatenates_S32768x32_S32768x32_S32768x64_d1 : Shape.Concatenates [S32768x32, S32768x32] S32768x64 1
  dot_S32768x256_S256x1024_S32768x1024_1_0_0_1_n_n_wf : DotDims.WF S32768x256 S256x1024 S32768x1024 [1] [0] [0] [1] [] []
  dot_S32768x1024_S1024x32_S32768x32_1_0_0_1_n_n_wf : DotDims.WF S32768x1024 S1024x32 S32768x32 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x1024_S1024x32_S32768x32_1_0_0_1_n_n : DotDims S32768x1024 S1024x32 S32768x32 where
  lhsContracting := [1]
  rhsContracting := [0]
  lhsNonContracting := [0]
  rhsNonContracting := [1]
  lhsBatch := []
  rhsBatch := []
  wf := dot_S32768x1024_S1024x32_S32768x32_1_0_0_1_n_n_wf

class Facts : Prop extends Facts₀ where

variable [Facts]
-- ==== Proof.RbfSpec.lean ====
/-
  The radial-basis head, stated once over plain families, in the two spellings the programs use.

  For one observation row x and centre k the squared distance is  r k = (|x|² - 2·⟨x, C k⟩) + |C k|².
  One spelling multiplies the negated distance by a precomputed reciprocal  rs k = 1 / den k;
  the other divides the negated distance by  den k.  Off a zero denominator the exact quotient
  a / d is a · d⁻¹, so the two agree: (0 - r) · (1 · d⁻¹) = (-r) · d⁻¹.  The denominator is
  2 · |σ k|, which is nonzero exactly when σ k is.
-/
import Idealize.ShloMosaic.PureOps.Ideal.Laws
import Idealize.ShloMosaic.Lib.ValueIdx

noncomputable section

namespace Cert.Rbf

open Idealize.ShloMosaic

/-- The literal 2.0. -/
abbrev two : EReal := Ideal.ofBits .f32 0x40000000#32
/-- The literal 1.0. -/
abbrev one : EReal := Ideal.ofBits .f32 0x3F800000#32
/-- The literal -20.0, the lower clip bound. -/
abbrev lo : EReal := Ideal.ofBits .f32 0xC1A00000#32

theorem one_eq : one = 1 := by
  unfold one; simp [Ideal.ofBits, Ideal.ieee, -EReal.coe_mul]; norm_num

theorem two_pos : 0 < two := by
  unfold two; simp [Ideal.ofBits, Ideal.ieee, -EReal.coe_mul]

/-- The denominator 2·|σ| of a nonzero width is nonzero. -/
theorem den_ne_zero {s : EReal} (hs : s ≠ 0) : two * max s (-s) ≠ 0 :=
  ne_of_gt (EReal.mul_pos two_pos ((Ideal.zero_lt_max_neg_iff s).2 hs))

/-- Multiplying the negated distance by the reciprocal of a nonzero denominator is dividing by it. -/
theorem neg_mul_recip (r d : EReal) (hd : d ≠ 0) :
    (0 - r) * Ideal.div one d = Ideal.div (-r) d := by
  unfold Ideal.div
  rw [if_neg hd, if_neg hd, one_eq, one_mul, sub_eq_add_neg, zero_add]

variable {K : ℕ}

/-- The head with the reciprocal precomputed: Σ_k exp((0 - r k) · rs k) · w k + b. -/
def headMul (x2 : EReal) (xc c2 rs w : Fin K → EReal) (b : EReal) : EReal :=
  (∑ k, Ideal.exp ((0 - ((x2 - two * xc k) + c2 k)) * rs k) * w k) + b

/-- The head with the quotient: Σ_k exp((-r k) / den k) · w k + b. -/
def headDiv (x2 : EReal) (xc c2 den w : Fin K → EReal) (b : EReal) : EReal :=
  (∑ k, Ideal.exp (Ideal.div (-((x2 - two * xc k) + c2 k)) (den k)) * w k) + b

/-- With every denominator nonzero and every reciprocal 1 / den k, the two heads are equal. -/
theorem headMul_eq_headDiv (x2 : EReal) (xc c2 rs den w : Fin K → EReal) (b : EReal)
    (hden : ∀ k, den k ≠ 0) (hrs : ∀ k, rs k = Ideal.div one (den k)) :
    headMul x2 xc c2 rs w b = headDiv x2 xc c2 den w b := by
  unfold headMul headDiv
  refine congrArg (· + b) (Finset.sum_congr rfl fun k _ => ?_)
  rw [hrs k, neg_mul_recip _ _ (hden k)]

/-- The clipped, exponentiated head of the deviation branch. -/
def clipExp (h : EReal) : EReal := Ideal.exp (min two (max lo h))

end Cert.Rbf

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.KerPay.lean ====
/-
  The kernel body's stored value, read at one entry of the output block.

  Row p of the block depends on row p of the observation block only.  Column q < 32 holds the mean head
  at action q; column q ≥ 32 holds the exponential of the clipped deviation head at action q - 32.
  Each head is  Σ_k exp((0 - ((|x|² - 2·Σ_d x_d·Cᵀ[d,k]) + c2[k])) · rs[k]) · Wᵀ[k,a] + b[a].
-/
import proofs.«142655_j50379966382218_1_alg».proof.Proof.Gen.KernelIdeal.Skeleton
import proofs.«142655_j50379966382218_1_alg».proof.Proof.RbfSpec
import proofs.«142655_j50379966382218_1_alg».proof.Proof.LibPlainDot
import proofs.«142655_j50379966382218_1_alg».proof.Proof.LibColumnBroadcast
import proofs.«142655_j50379966382218_1_alg».proof.Proof.LibColumnCast
import Idealize.ShloMosaic.Lib.Pipeline.Value
import Idealize.ShloMosaic.Lib.ValueLayout

noncomputable section

namespace Cert.Rbf.Ker

open Cert.KernelIdeal Cert.KernelIdeal.Gen Idealize.ShloMosaic Idealize.ShloMosaic.ValueIdx Cert.Rbf

/-! ## The shared pieces -/

/-- The first product's dimension numbers are those of a plain rows-by-columns product. -/
theorem dotA_eq : dot_S1024x256_S256x1024_S1024x1024_1_0_0_1_n_n = DotDims.plain 1024 256 1024 := rfl

/-- The second product's dimension numbers are those of a plain rows-by-columns product. -/
theorem dotB_eq : dot_S1024x1024_S1024x32_S1024x32_1_0_0_1_n_n = DotDims.plain 1024 1024 32 := rfl

/-- The squared norm of row p of the observation block, kept as a column. -/
theorem pay3_apply (x0 : Vec Ideal S1024x256 .f32) (p : Fin 1024) (u : Fin 1) :
    k0_pay3 (F := Ideal) x0 (ix2 p u) = ∑ d : Fin 256, x0 (ix2 p d) * x0 (ix2 p d) := by
  unfold k0_pay3
  refine (shapeCast_a_a1_apply _ _ p u).trans ?_
  refine (Ideal.multiReduction_add_single _ _ _ _ _ _).trans ?_
  refine Finset.sum_congr rfl fun d _ => ?_
  have e : reduces_S1024x256_S1024.lift (ix1 p) d = ix2 p d :=
    funext fun c => Fin.ext (by
      match c with
      | ⟨0, _⟩ => rfl
      | ⟨1, _⟩ => rfl)
  rw [e]
  rfl

/-- The first product into a zero accumulator, read at (p, k): the sum over the observation's coordinates. -/
theorem dotA_apply {φ₁ φ₂ : FTy} (l : FVec Ideal S1024x256 φ₁) (r : FVec Ideal S256x1024 φ₂) (p k : Fin 1024) :
    FloatOps.matmul dot_S1024x256_S256x1024_S1024x1024_1_0_0_1_n_n none l r
        (constant (F := Ideal) S1024x1024 .f32 0x00000000#32) (ix2 p k)
      = ∑ d : Fin 256, l (ix2 p d) * r (ix2 d k) := by
  rw [dotA_eq]
  exact plain_matmul_zero_apply none l r (ix2 p k)

/-- The second product into a zero accumulator, read at (p, a): the sum over the centres. -/
theorem dotB_apply {φ₁ φ₂ : FTy} (l : FVec Ideal S1024x1024 φ₁) (r : FVec Ideal S1024x32 φ₂) (p : Fin 1024) (a : Fin 32) :
    FloatOps.matmul dot_S1024x1024_S1024x32_S1024x32_1_0_0_1_n_n none l r
        (constant (F := Ideal) S1024x32 .f32 0x00000000#32) (ix2 p a)
      = ∑ k : Fin 1024, l (ix2 p k) * r (ix2 k a) := by
  rw [dotB_eq]
  exact plain_matmul_zero_apply none l r (ix2 p a)

/-- The squared norm of row p less twice its inner product with centre k. -/
theorem pay5_apply (x0 : Vec Ideal S1024x256 .f32) (x1 : Vec Ideal S256x1024 .bf16) (p k : Fin 1024) :
    k0_pay5 (F := Ideal) x0 x1 (ix2 p k)
      = (∑ d : Fin 256, x0 (ix2 p d) * x0 (ix2 p d)) - two * ∑ d : Fin 256, x0 (ix2 p d) * x1 (ix2 d k) := by
  unfold k0_pay5
  refine (subf_apply _ _ (ix2 p k)).trans ?_
  refine congrArg₂ (· - ·) ?_ ?_
  · exact (broadcastTo_a1_ab_apply _ _ p k).trans (pay3_apply x0 p 0)
  · refine (mulf_apply _ _ (ix2 p k)).trans ?_
    refine congrArg (two * ·) ?_
    refine (dotA_apply _ _ p k).trans ?_
    refine Finset.sum_congr rfl fun d _ => ?_
    exact congrArg (x0 (ix2 p d) * ·) (congrFun (shapeCast_self x1 _) (ix2 d k))

/-- A head from the distance's first part on: add the centre norms, negate, scale by the reciprocals, exponentiate,
    weigh by the output matrix, add the bias. -/
def headOf (v37 : FVec Ideal S1024x1024 .f32) (x7 x8 : FVec Ideal S1x1024 .f32) (x9 : FVec Ideal S1024x32 .bf16)
    (x10 : FVec Ideal S1x32 .f32) : FVec Ideal S1024x32 .f32 :=
  addf
    (FloatOps.matmul dot_S1024x1024_S1024x32_S1024x32_1_0_0_1_n_n none
      (truncf .bf16
        (exp (mulf
          (subf (broadcast S1024x1024 (Scalar.ofBits (F := Ideal) .f32 0x00000000#32))
            (addf v37 (broadcastTo S1024x1024 (shapeCast S1x1024 x7 shapeCasts_S1x1024_S1x1024) broadcasts_S1x1024_S1024x1024)))
          (broadcastTo S1024x1024 (shapeCast S1x1024 x8 shapeCasts_S1x1024_S1x1024) broadcasts_S1x1024_S1024x1024)))
        bitsLt_bf16_f32)
      (shapeCast S1024x32 x9 shapeCasts_S1024x32_S1024x32)
      (constant (F := Ideal) S1024x32 .f32 0x00000000#32))
    (broadcastTo S1024x32 (shapeCast S1x32 x10 shapeCasts_S1x32_S1x32) broadcasts_S1x32_S1024x32)

/-- The head read at row p, action a. -/
theorem headOf_apply (v37 : FVec Ideal S1024x1024 .f32) (x7 x8 : FVec Ideal S1x1024 .f32) (x9 : FVec Ideal S1024x32 .bf16)
    (x10 : FVec Ideal S1x32 .f32) (p : Fin 1024) (a : Fin 32) :
    headOf v37 x7 x8 x9 x10 (ix2 p a)
      = (∑ k : Fin 1024, Ideal.exp ((0 - (v37 (ix2 p k) + x7 (ix2 0 k))) * x8 (ix2 0 k)) * x9 (ix2 k a)) + x10 (ix2 0 a) := by
  unfold headOf
  refine (addf_apply _ _ (ix2 p a)).trans ?_
  refine congrArg₂ (· + ·) ?_ ?_
  · refine (dotB_apply _ _ p a).trans ?_
    refine Finset.sum_congr rfl fun k _ => ?_
    refine congrArg₂ (· * ·) ?_ ?_
    · show Ideal.exp _ = _
      refine congrArg Ideal.exp ?_
      refine congrArg₂ (· * ·) ?_ ?_
      · refine congrArg₂ (· - ·) Ideal.ofBits_zero_f32 ?_
        refine congrArg (v37 (ix2 p k) + ·) ?_
        exact (broadcastTo_1b_ab_apply _ _ p k).trans (congrFun (shapeCast_self x7 _) _)
      · exact (broadcastTo_1b_ab_apply _ _ p k).trans (congrFun (shapeCast_self x8 _) _)
    · exact congrFun (shapeCast_self x9 _) (ix2 k a)
  · exact (broadcastTo_1b_ab_apply _ _ p a).trans (congrFun (shapeCast_self x10 _) _)

/-- The head over the loaded vectors, in the specification's spelling. -/
theorem head_apply (x0 : Vec Ideal S1024x256 .f32) (x1 : Vec Ideal S256x1024 .bf16) (x2 x3 : Vec Ideal S1x1024 .f32)
    (x4 : Vec Ideal S1024x32 .bf16) (x5 : Vec Ideal S1x32 .f32) (p : Fin 1024) (a : Fin 32) :
    headOf (k0_pay5 x0 x1) x2 x3 x4 x5 (ix2 p a)
      = headMul (∑ d : Fin 256, x0 (ix2 p d) * x0 (ix2 p d)) (fun k : Fin 1024 => ∑ d : Fin 256, x0 (ix2 p d) * x1 (ix2 d k))
          (fun k => x2 (ix2 0 k)) (fun k => x3 (ix2 0 k)) (fun k => x4 (ix2 k a)) (x5 (ix2 0 a)) := by
  refine (headOf_apply _ x2 x3 x4 x5 p a).trans ?_
  unfold headMul
  refine congrArg (· + x5 (ix2 0 a)) (Finset.sum_congr rfl fun k _ => ?_)
  rw [pay5_apply]

/-- The mean head's payload is the head over the first branch's loaded vectors. -/
theorem pay4_eq (x0 : Vec Ideal S1024x256 .f32) (x1 : Vec Ideal S256x1024 .bf16) (x2 x3 : Vec Ideal S1x1024 .f32)
    (x4 : Vec Ideal S1024x32 .bf16) (x5 : Vec Ideal S1x32 .f32) :
    k0_pay4 (F := Ideal) x0 x1 x2 x3 x4 x5 = headOf (k0_pay5 x0 x1) x2 x3 x4 x5 := rfl

/-- The stored block is the join, along the columns, of the mean head and the exponential of the clipped
    deviation head. -/
theorem pay1_eq (v30 : FVec Ideal S1024x32 .f32) (v37 : FVec Ideal S1024x1024 .f32) (x7 x8 : Vec Ideal S1x1024 .f32)
    (x9 : Vec Ideal S1024x32 .bf16) (x10 : Vec Ideal S1x32 .f32) :
    k0_pay1 (F := Ideal) v30 v37 x7 x8 x9 x10
      = concatenate S1024x64 1
          [⟨S1024x32, v30⟩,
           ⟨S1024x32, exp (minimumf (broadcast S1024x32 (Scalar.ofBits (F := Ideal) .f32 0x40000000#32))
              (maximumf (broadcast S1024x32 (Scalar.ofBits (F := Ideal) .f32 0xC1A00000#32)) (headOf v37 x7 x8 x9 x10)))⟩]
          concatenates_S1024x32_S1024x32_S1024x64_d1 := rfl

/-! ## The stored value -/

/-- The mean head's payload at row p, action a. -/
theorem pay4_apply (x0 : Vec Ideal S1024x256 .f32) (x1 : Vec Ideal S256x1024 .bf16) (x2 x3 : Vec Ideal S1x1024 .f32)
    (x4 : Vec Ideal S1024x32 .bf16) (x5 : Vec Ideal S1x32 .f32) (p : Fin 1024) (a : Fin 32) :
    k0_pay4 (F := Ideal) x0 x1 x2 x3 x4 x5 (ix2 p a)
      = headMul (∑ d : Fin 256, x0 (ix2 p d) * x0 (ix2 p d)) (fun k : Fin 1024 => ∑ d : Fin 256, x0 (ix2 p d) * x1 (ix2 d k))
          (fun k => x2 (ix2 0 k)) (fun k => x3 (ix2 0 k)) (fun k => x4 (ix2 k a)) (x5 (ix2 0 a)) := by
  rw [pay4_eq]
  exact head_apply x0 x1 x2 x3 x4 x5 p a

/-- A column of the first half of the stored block is the first operand of the join. -/
theorem pay1_apply_left (v30 : FVec Ideal S1024x32 .f32) (v37 : FVec Ideal S1024x1024 .f32) (x7 x8 : Vec Ideal S1x1024 .f32)
    (x9 : Vec Ideal S1024x32 .bf16) (x10 : Vec Ideal S1x32 .f32) (p : Fin 1024) (q : Fin 64) (hq : q.val < 32) :
    k0_pay1 (F := Ideal) v30 v37 x7 x8 x9 x10 (ix2 p q) = v30 (ix2 p ⟨q.val, hq⟩) := by
  rw [pay1_eq]
  refine concatenate_pair_apply_left (t := S1024x64) (s₁ := S1024x32) (s₂ := S1024x32) 1 v30 _
    concatenates_S1024x32_S1024x32_S1024x64_d1 (ix2 p q) rfl (ix2 p ⟨q.val, hq⟩) fun b => ?_
  match b with
  | ⟨0, _⟩ => rfl
  | ⟨1, _⟩ => rfl

/-- A column of the second half is the exponential of the clipped deviation head. -/
theorem pay1_apply_right (v30 : FVec Ideal S1024x32 .f32) (x0 : Vec Ideal S1024x256 .f32) (x6 : Vec Ideal S256x1024 .bf16)
    (x7 x8 : Vec Ideal S1x1024 .f32) (x9 : Vec Ideal S1024x32 .bf16) (x10 : Vec Ideal S1x32 .f32)
    (p : Fin 1024) (q : Fin 64) (hq : 32 ≤ q.val) :
    k0_pay1 (F := Ideal) v30 (k0_pay5 x0 x6) x7 x8 x9 x10 (ix2 p q)
      = clipExp (headMul (∑ d : Fin 256, x0 (ix2 p d) * x0 (ix2 p d)) (fun k : Fin 1024 => ∑ d : Fin 256, x0 (ix2 p d) * x6 (ix2 d k))
          (fun k => x7 (ix2 0 k)) (fun k => x8 (ix2 0 k)) (fun k => x9 (ix2 k ⟨q.val - 32, by omega⟩)) (x10 (ix2 0 ⟨q.val - 32, by omega⟩))) := by
  rw [pay1_eq]
  refine (concatenate_pair_apply_right (t := S1024x64) (s₁ := S1024x32) (s₂ := S1024x32) 1 v30 _
    concatenates_S1024x32_S1024x32_S1024x64_d1 (ix2 p q) rfl rfl (ix2 p ⟨q.val - 32, by omega⟩) (fun b hb => ?_) ?_).trans ?_
  · match b with
    | ⟨0, _⟩ => rfl
    | ⟨1, _⟩ => exact absurd rfl hb
  · show (q.val - 32) + 32 = q.val
    omega
  · unfold clipExp
    refine congrArg Ideal.exp ?_
    refine congrArg₂ min rfl ?_
    refine congrArg₂ max rfl ?_
    exact head_apply x0 x6 x7 x8 x9 x10 p ⟨q.val - 32, by omega⟩

end Cert.Rbf.Ker

end
-- ==== Proof.HostV.lean ====
/-
  The arrays the kernel region finds, written by the host operations before it, read at one entry.

  Cᵀ[d,k] = C[k,d] and Wᵀ[k,a] = W[a,k] (a change of format is the identity on exact values);
  c2[0,k] = 0 + Σ_d C[k,d]·C[k,d];  rs[0,k] = 1 / (2·|σ[k]|);  the bias rows b[0,a] = b[a].
-/
import proofs.«142655_j50379966382218_1_alg».proof.Proof.Gen.KernelIdeal.Frame
import proofs.«142655_j50379966382218_1_alg».proof.Proof.RbfSpec
import Idealize.ShloMosaic.Lib.Pipeline.Value
import Idealize.ShloMosaic.Lib.ValueLayout
import Idealize.ShloMosaic.Lib.StableHlo.Run

noncomputable section

namespace Cert.Rbf.HostV

open Cert.KernelIdeal Cert.KernelIdeal.Gen Idealize.ShloMosaic Idealize.ShloMosaic.TcCoe Idealize.SL.Sem
open Idealize.ShloMosaic.ValueIdx Cert.Rbf

/-! ## The host operations' functions read at an entry -/

/-- A transposed [1024, 256] array at (d, k) is the array at (k, d). -/
theorem transpose_centres (x : S1024x256.Idx → EReal) (d : Fin 256) (k : Fin 1024) :
    transpose S256x1024 [1, 0] x transposes_S1024x256_S256x1024_1_0 (ix2 d k) = x (ix2 k d) :=
  transpose_apply [1, 0] x transposes_S1024x256_S256x1024_1_0 (ix2 d k) (ix2 k d) (fun b => match b with
    | ⟨0, _⟩ => rfl
    | ⟨1, _⟩ => rfl)

/-- A transposed [32, 1024] array at (k, a) is the array at (a, k). -/
theorem transpose_weights (x : S32x1024.Idx → EReal) (k : Fin 1024) (a : Fin 32) :
    transpose S1024x32 [1, 0] x transposes_S32x1024_S1024x32_1_0 (ix2 k a) = x (ix2 a k) :=
  transpose_apply [1, 0] x transposes_S32x1024_S1024x32_1_0 (ix2 k a) (ix2 a k) (fun b => match b with
    | ⟨0, _⟩ => rfl
    | ⟨1, _⟩ => rfl)

/-- A [1024] array laid as a row [1, 1024]: entry (0, k) is entry k. -/
theorem row_1024 (x : S1024.Idx → EReal) (k : Fin 1024) :
    broadcastInDim S1x1024 ![1] bcast_S1024_S1x1024_1 x (ix2 0 k) = x (ix1 k) :=
  broadcastInDim_apply _ bcast_S1024_S1x1024_1 x (ix2 0 k) (ix1 k) (fun a => match a with
    | ⟨0, _⟩ => by show k.val = if (1024 : Nat) = 1 then 0 else k.val; rw [if_neg (by decide)])

/-- A [32] array laid as a row [1, 32]: entry (0, a) is entry a. -/
theorem row_32 (x : S32.Idx → EReal) (a : Fin 32) :
    broadcastInDim S1x32 ![1] bcast_S32_S1x32_1 x (ix2 0 a) = x (ix1 a) :=
  broadcastInDim_apply _ bcast_S32_S1x32_1 x (ix2 0 a) (ix1 a) (fun b => match b with
    | ⟨0, _⟩ => by show a.val = if (32 : Nat) = 1 then 0 else a.val; rw [if_neg (by decide)])

/-- A scalar spread over [1024]: every entry is the scalar. -/
theorem spread_1024 (x : S_.Idx → EReal) (i : S1024.Idx) :
    broadcastInDim S1024 ![] bcast_S_S1024 x i = x ix0 :=
  broadcastInDim_apply _ bcast_S_S1024 x i ix0 (fun a => a.elim0)

/-- The sum over axis 1 of a [1024, 256] array from an initial scalar: at k, the scalar plus Σ_d of the array at (k, d). -/
theorem rowsum_centres (y : FVec Ideal S1024x256 .f32) (v : FVec Ideal S_ .f32) (k : Fin 1024) :
    Host.reduceAdd (F := Ideal) y v reducesTo_S1024x256_S1024_d1 h_S_ (ix1 k)
      = v (Shape.Idx.first h_S_) + ∑ d : Fin 256, y (ix2 k d) := by
  simp only [Host.reduceAdd, Ideal.hostReduceAdd_def]
  rw [Ideal.hostReduceAdd_single reducesTo_S1024x256_S1024_d1 (by decide)]
  refine congrArg (_ + ·) (Finset.sum_congr rfl fun d _ => ?_)
  exact congrArg y (funext fun a => Fin.ext (by match a with | ⟨0, _⟩ => rfl | ⟨1, _⟩ => rfl))

variable (m : (ℓ : Loc nD τ sig) → Buf (Elt Ideal) ℓ)

/-- The argument arrays at their literal shapes. -/
abbrev A0 (c : Dev nD) : S32768x256.Idx → EReal := m ((c : Thread nD τ).loc main_arg0)
abbrev A1 (c : Dev nD) : S1024x256.Idx → EReal := m ((c : Thread nD τ).loc main_arg1)
abbrev A2 (c : Dev nD) : S1024.Idx → EReal := m ((c : Thread nD τ).loc main_arg2)
abbrev A3 (c : Dev nD) : S32x1024.Idx → EReal := m ((c : Thread nD τ).loc main_arg3)
abbrev A4 (c : Dev nD) : S32.Idx → EReal := m ((c : Thread nD τ).loc main_arg4)
abbrev A5 (c : Dev nD) : S1024x256.Idx → EReal := m ((c : Thread nD τ).loc main_arg5)
abbrev A6 (c : Dev nD) : S1024.Idx → EReal := m ((c : Thread nD τ).loc main_arg6)
abbrev A7 (c : Dev nD) : S32x1024.Idx → EReal := m ((c : Thread nD τ).loc main_arg7)
abbrev A8 (c : Dev nD) : S32.Idx → EReal := m ((c : Thread nD τ).loc main_arg8)

/-- The arrays the region finds, at their literal shapes. -/
abbrev W0 (c : Dev nD) : S32768x256.Idx → EReal := V m c main_arg0
abbrev W1 (c : Dev nD) : S256x1024.Idx → EReal := V m c main_v1
abbrev W2 (c : Dev nD) : S1x1024.Idx → EReal := V m c main_v10
abbrev W3 (c : Dev nD) : S1x1024.Idx → EReal := V m c main_v19
abbrev W4 (c : Dev nD) : S1024x32.Idx → EReal := V m c main_v5
abbrev W5 (c : Dev nD) : S1x32.Idx → EReal := V m c main_v26
abbrev W6 (c : Dev nD) : S256x1024.Idx → EReal := V m c main_v3
abbrev W7 (c : Dev nD) : S1x1024.Idx → EReal := V m c main_v13
abbrev W8 (c : Dev nD) : S1x1024.Idx → EReal := V m c main_v25
abbrev W9 (c : Dev nD) : S1024x32.Idx → EReal := V m c main_v7
abbrev W10 (c : Dev nD) : S1x32.Idx → EReal := V m c main_v27

/-- The observations are as launched. -/
theorem W0_eq (c : Dev nD) : W0 m c = A0 m c := V_main_arg0 m c

/-- The transposed mean centres. -/
theorem W1_apply (c : Dev nD) (d : Fin 256) (k : Fin 1024) : W1 m c (ix2 d k) = A1 m c (ix2 k d) := by
  show V m c main_v1 (ix2 d k) = _
  dsimp only [Gen.V, Gen.hostOps0]
  after_results
  exact transpose_centres _ d k

/-- The squared norms of the mean centres. -/
theorem W2_apply (c : Dev nD) (k : Fin 1024) :
    W2 m c (ix2 0 k) = ∑ d : Fin 256, A1 m c (ix2 k d) * A1 m c (ix2 k d) := by
  show V m c main_v10 (ix2 0 k) = _
  dsimp only [Gen.V, Gen.hostOps0]
  after_results
  refine (row_1024 _ k).trans ?_
  refine (rowsum_centres _ _ k).trans ?_
  show Ideal.ofBits .f32 0x00000000#32 + _ = _
  rw [Ideal.ofBits_zero_f32, zero_add]
  exact Finset.sum_congr rfl fun d _ => rfl

/-- The mean reciprocals 1 / (2·|σ|). -/
theorem W3_apply (c : Dev nD) (k : Fin 1024) :
    W3 m c (ix2 0 k) = Ideal.div one (two * max (A2 m c (ix1 k)) (-(A2 m c (ix1 k)))) := by
  show V m c main_v19 (ix2 0 k) = _
  dsimp only [Gen.V, Gen.hostOps0]
  after_results
  refine (row_1024 _ k).trans ?_
  show Ideal.div (broadcastInDim S1024 ![] bcast_S_S1024 (constant (F := Ideal) S_ .f32 0x3F800000#32) (ix1 k))
      (broadcastInDim S1024 ![] bcast_S_S1024 (constant (F := Ideal) S_ .f32 0x40000000#32) (ix1 k)
        * max (A2 m c (ix1 k)) (-(A2 m c (ix1 k)))) = _
  rw [spread_1024, spread_1024]
  rfl

/-- The transposed mean weights. -/
theorem W4_apply (c : Dev nD) (k : Fin 1024) (a : Fin 32) : W4 m c (ix2 k a) = A3 m c (ix2 a k) := by
  show V m c main_v5 (ix2 k a) = _
  dsimp only [Gen.V, Gen.hostOps0]
  after_results
  exact transpose_weights _ k a

/-- The mean bias as a row. -/
theorem W5_apply (c : Dev nD) (a : Fin 32) : W5 m c (ix2 0 a) = A4 m c (ix1 a) := by
  show V m c main_v26 (ix2 0 a) = _
  dsimp only [Gen.V, Gen.hostOps0]
  after_results
  exact row_32 _ a

/-- The transposed deviation centres. -/
theorem W6_apply (c : Dev nD) (d : Fin 256) (k : Fin 1024) : W6 m c (ix2 d k) = A5 m c (ix2 k d) := by
  show V m c main_v3 (ix2 d k) = _
  dsimp only [Gen.V, Gen.hostOps0]
  after_results
  exact transpose_centres _ d k

/-- The squared norms of the deviation centres. -/
theorem W7_apply (c : Dev nD) (k : Fin 1024) :
    W7 m c (ix2 0 k) = ∑ d : Fin 256, A5 m c (ix2 k d) * A5 m c (ix2 k d) := by
  show V m c main_v13 (ix2 0 k) = _
  dsimp only [Gen.V, Gen.hostOps0]
  after_results
  refine (row_1024 _ k).trans ?_
  refine (rowsum_centres _ _ k).trans ?_
  show Ideal.ofBits .f32 0x00000000#32 + _ = _
  rw [Ideal.ofBits_zero_f32, zero_add]
  exact Finset.sum_congr rfl fun d _ => rfl

/-- The deviation reciprocals 1 / (2·|σ|). -/
theorem W8_apply (c : Dev nD) (k : Fin 1024) :
    W8 m c (ix2 0 k) = Ideal.div one (two * max (A6 m c (ix1 k)) (-(A6 m c (ix1 k)))) := by
  show V m c main_v25 (ix2 0 k) = _
  dsimp only [Gen.V, Gen.hostOps0]
  after_results
  refine (row_1024 _ k).trans ?_
  show Ideal.div (broadcastInDim S1024 ![] bcast_S_S1024 (constant (F := Ideal) S_ .f32 0x3F800000#32) (ix1 k))
      (broadcastInDim S1024 ![] bcast_S_S1024 (constant (F := Ideal) S_ .f32 0x40000000#32) (ix1 k)
        * max (A6 m c (ix1 k)) (-(A6 m c (ix1 k)))) = _
  rw [spread_1024, spread_1024]
  rfl

/-- The transposed deviation weights. -/
theorem W9_apply (c : Dev nD) (k : Fin 1024) (a : Fin 32) : W9 m c (ix2 k a) = A7 m c (ix2 a k) := by
  show V m c main_v7 (ix2 k a) = _
  dsimp only [Gen.V, Gen.hostOps0]
  after_results
  exact transpose_weights _ k a

/-- The deviation bias as a row. -/
theorem W10_apply (c : Dev nD) (a : Fin 32) : W10 m c (ix2 0 a) = A8 m c (ix1 a) := by
  show V m c main_v27 (ix2 0 a) = _
  dsimp only [Gen.V, Gen.hostOps0]
  after_results
  exact row_32 _ a

end Cert.Rbf.HostV

end
-- ==== Proof.RbfWhole.lean ====
/-
  The whole result as one function of the nine argument arrays.

  Entry (r, q) of the result: for q < 32 the mean head of observation row r at action q; for q ≥ 32 the
  exponential of the clipped deviation head at action q - 32.  A head at (r, a) is
  Σ_k exp((-r_k) / (2·|σ_k|)) · W[a,k] + b[a]  with  r_k = (|x_r|² - 2·Σ_d x[r,d]·C[k,d]) + |C_k|².
-/
import proofs.«142655_j50379966382218_1_alg».proof.Proof.RbfSpec

noncomputable section

namespace Cert.Rbf

open Idealize.ShloMosaic Idealize.ShloMosaic.ValueIdx

/-- One head at observation row r and action a, from the observations, the centres, the widths, the weights and the bias. -/
def headAt (x : (⟨2, ![32768, 256]⟩ : Shape).Idx → EReal) (C : (⟨2, ![1024, 256]⟩ : Shape).Idx → EReal)
    (s : (⟨1, ![1024]⟩ : Shape).Idx → EReal) (w : (⟨2, ![32, 1024]⟩ : Shape).Idx → EReal) (b : (⟨1, ![32]⟩ : Shape).Idx → EReal)
    (r : Fin 32768) (a : Fin 32) : EReal :=
  headDiv (∑ d : Fin 256, x (ix2 r d) * x (ix2 r d)) (fun k : Fin 1024 => ∑ d : Fin 256, x (ix2 r d) * C (ix2 k d))
    (fun k => ∑ d : Fin 256, C (ix2 k d) * C (ix2 k d)) (fun k => two * max (s (ix1 k)) (-(s (ix1 k))))
    (fun k => w (ix2 a k)) (b (ix1 a))

/-- The result array: the mean head in columns 0…31, the exponentiated clipped deviation head in columns 32…63. -/
def G (x0 : (⟨2, ![32768, 256]⟩ : Shape).Idx → EReal) (x1 : (⟨2, ![1024, 256]⟩ : Shape).Idx → EReal)
    (x2 : (⟨1, ![1024]⟩ : Shape).Idx → EReal) (x3 : (⟨2, ![32, 1024]⟩ : Shape).Idx → EReal) (x4 : (⟨1, ![32]⟩ : Shape).Idx → EReal)
    (x5 : (⟨2, ![1024, 256]⟩ : Shape).Idx → EReal) (x6 : (⟨1, ![1024]⟩ : Shape).Idx → EReal)
    (x7 : (⟨2, ![32, 1024]⟩ : Shape).Idx → EReal) (x8 : (⟨1, ![32]⟩ : Shape).Idx → EReal) :
    (⟨2, ![32768, 64]⟩ : Shape).Idx → EReal := fun i =>
  if h : (i 1).val < 32 then headAt x0 x1 x2 x3 x4 (i 0) ⟨(i 1).val, h⟩
  else clipExp (headAt x0 x5 x6 x7 x8 (i 0) ⟨(i 1).val - 32, by have h64 : (i 1).val < 64 := (i 1).isLt; omega⟩)

/-- The result at (r, q) for q < 32. -/
theorem G_left (x0 x1 x2 x3 x4 x5 x6 x7 x8) (r : Fin 32768) (q : Fin 64) (hq : q.val < 32) :
    G x0 x1 x2 x3 x4 x5 x6 x7 x8 (ix2 r q) = headAt x0 x1 x2 x3 x4 r ⟨q.val, hq⟩ := by
  unfold G
  exact dif_pos hq

/-- The result at (r, q) for q ≥ 32. -/
theorem G_right (x0 x1 x2 x3 x4 x5 x6 x7 x8) (r : Fin 32768) (q : Fin 64) (hq : 32 ≤ q.val) :
    G x0 x1 x2 x3 x4 x5 x6 x7 x8 (ix2 r q) = clipExp (headAt x0 x5 x6 x7 x8 r ⟨q.val - 32, by omega⟩) := by
  unfold G
  exact dif_neg (Nat.not_lt.2 hq)

/-- One head, two spellings: over staged operands — a block xb whose row p is row r of the observations, the centres
    transposed, their squared norms, the reciprocals 1/(2·|σ|), the weights transposed, the bias as a row — the reciprocal
    spelling equals the quotient spelling over the arguments, provided no width is zero. -/
theorem head_eq (x : (⟨2, ![32768, 256]⟩ : Shape).Idx → EReal) (C : (⟨2, ![1024, 256]⟩ : Shape).Idx → EReal)
    (s : (⟨1, ![1024]⟩ : Shape).Idx → EReal) (w : (⟨2, ![32, 1024]⟩ : Shape).Idx → EReal) (b : (⟨1, ![32]⟩ : Shape).Idx → EReal)
    (xb : (⟨2, ![1024, 256]⟩ : Shape).Idx → EReal) (CT : (⟨2, ![256, 1024]⟩ : Shape).Idx → EReal)
    (c2 rs : (⟨2, ![1, 1024]⟩ : Shape).Idx → EReal) (wT : (⟨2, ![1024, 32]⟩ : Shape).Idx → EReal)
    (bR : (⟨2, ![1, 32]⟩ : Shape).Idx → EReal) (r : Fin 32768) (p : Fin 1024) (a : Fin 32)
    (hx : ∀ d : Fin 256, xb (ix2 p d) = x (ix2 r d)) (hC : ∀ (d : Fin 256) (k : Fin 1024), CT (ix2 d k) = C (ix2 k d))
    (hc2 : ∀ k : Fin 1024, c2 (ix2 0 k) = ∑ d : Fin 256, C (ix2 k d) * C (ix2 k d))
    (hrs : ∀ k : Fin 1024, rs (ix2 0 k) = Ideal.div one (two * max (s (ix1 k)) (-(s (ix1 k)))))
    (hw : ∀ k : Fin 1024, wT (ix2 k a) = w (ix2 a k)) (hb : bR (ix2 0 a) = b (ix1 a))
    (hs : ∀ k : Fin 1024, s (ix1 k) ≠ 0) :
    headMul (∑ d : Fin 256, xb (ix2 p d) * xb (ix2 p d)) (fun k : Fin 1024 => ∑ d : Fin 256, xb (ix2 p d) * CT (ix2 d k))
        (fun k => c2 (ix2 0 k)) (fun k => rs (ix2 0 k)) (fun k => wT (ix2 k a)) (bR (ix2 0 a))
      = headAt x C s w b r a := by
  unfold headAt
  have e1 : (∑ d : Fin 256, xb (ix2 p d) * xb (ix2 p d)) = ∑ d : Fin 256, x (ix2 r d) * x (ix2 r d) :=
    Finset.sum_congr rfl fun d _ => by rw [hx d]
  have e2 : (fun k : Fin 1024 => ∑ d : Fin 256, xb (ix2 p d) * CT (ix2 d k)) = fun k => ∑ d : Fin 256, x (ix2 r d) * C (ix2 k d) :=
    funext fun k => Finset.sum_congr rfl fun d _ => by rw [hx d, hC d k]
  have e3 : (fun k : Fin 1024 => c2 (ix2 0 k)) = fun k => ∑ d : Fin 256, C (ix2 k d) * C (ix2 k d) := funext hc2
  have e4 : (fun k : Fin 1024 => wT (ix2 k a)) = fun k => w (ix2 a k) := funext hw
  rw [e1, e2, e3, e4, hb]
  exact headMul_eq_headDiv _ _ _ _ _ _ _ (fun k => den_ne_zero (hs k)) hrs

end Cert.Rbf

end
-- ==== Proof.KerRun.lean ====
/-
  The kernel's result array after the run, as one function of the argument arrays.

  Grid point t works on observation rows 1024·t … 1024·t + 1023: its observation block is those rows, every other
  operand is staged whole (block index zero on both axes), and it writes back the same rows of the result.  Row p of
  what it writes is therefore the two heads of observation row 1024·t + p; the 32 points' blocks tile the result.
-/
import proofs.«142655_j50379966382218_1_alg».proof.Proof.Gen.KernelIdeal.Value
import proofs.«142655_j50379966382218_1_alg».proof.Proof.KerPay
import proofs.«142655_j50379966382218_1_alg».proof.Proof.HostV
import proofs.«142655_j50379966382218_1_alg».proof.Proof.RbfWhole

noncomputable section

namespace Cert.Rbf.KerRun

open Cert.KernelIdeal Cert.KernelIdeal.Gen Idealize.ShloMosaic Idealize.ShloMosaic.TcCoe Idealize.SL.Sem
open Idealize.ShloMosaic.Pipeline (Dat)
open Idealize.ShloMosaic.ValueIdx Cert.Rbf Cert.Rbf.HostV

variable (m : (ℓ : Loc nD τ sig) → Buf (Elt Ideal) ℓ) (ρ : Dev nD → PrngReg)

theorem hz : (![0, 0] : Fin 2 → Nat) = fun _ => 0 := funext fun a => by fin_cases a <;> rfl

/-- The index maps over the 32 grid points: the observation and result windows take block (t, 0); every other window
    takes block (0, 0). -/
theorem idx_facts : ∀ t : Fin cfg0.N,
    win0_0.index t (0 : Fin 2) = t.val ∧ win0_0.index t (1 : Fin 2) = 0
    ∧ win0_11.index t (0 : Fin 2) = t.val ∧ win0_11.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0)
    ∧ (∀ a : Fin 2, win0_10.index t a = 0) :=
  (by decide +kernel : ∀ t : Fin grid0.N, _)

theorem t_lt (t : Fin cfg0.N) : t.val < 32 := Nat.lt_of_lt_of_eq t.isLt N_0

/-- The observation row that row p of grid point t's block is. -/
def row (t : Fin cfg0.N) (p : Fin 1024) : Fin 32768 :=
  ⟨t.val * 1024 + p.val, by have := t_lt t; have := p.isLt; omega⟩

/-- The input windows' blocks at a point, at their literal shapes. -/
abbrev B0 (c : Dev nD) (t : Fin cfg0.N) : S1024x256.Idx → EReal := iblk m c 0 t
abbrev B1 (c : Dev nD) (t : Fin cfg0.N) : S256x1024.Idx → EReal := iblk m c 1 t
abbrev B2 (c : Dev nD) (t : Fin cfg0.N) : S1x1024.Idx → EReal := iblk m c 2 t
abbrev B3 (c : Dev nD) (t : Fin cfg0.N) : S1x1024.Idx → EReal := iblk m c 3 t
abbrev B4 (c : Dev nD) (t : Fin cfg0.N) : S1024x32.Idx → EReal := iblk m c 4 t
abbrev B5 (c : Dev nD) (t : Fin cfg0.N) : S1x32.Idx → EReal := iblk m c 5 t
abbrev B6 (c : Dev nD) (t : Fin cfg0.N) : S256x1024.Idx → EReal := iblk m c 6 t
abbrev B7 (c : Dev nD) (t : Fin cfg0.N) : S1x1024.Idx → EReal := iblk m c 7 t
abbrev B8 (c : Dev nD) (t : Fin cfg0.N) : S1x1024.Idx → EReal := iblk m c 8 t
abbrev B9 (c : Dev nD) (t : Fin cfg0.N) : S1024x32.Idx → EReal := iblk m c 9 t
abbrev B10 (c : Dev nD) (t : Fin cfg0.N) : S1x32.Idx → EReal := iblk m c 10 t

/-- Row p of the observation block at point t is observation row 1024·t + p. -/
theorem B0_apply (c : Dev nD) (t : Fin cfg0.N) (p : Fin 1024) (d : Fin 256) :
    B0 m c t (ix2 p d) = A0 m c (ix2 (row t p) d) := by
  obtain ⟨e0, e1, -⟩ := idx_facts t
  show V m c main_arg0 (((cfg0.win 0).blk t).view.emb (ix2 p d)) = _
  rw [V_main_arg0]
  refine congrArg (A0 m c) ?_
  funext a; apply Fin.ext
  match a with
  | ⟨0, _⟩ => show win0_0.index t (0 : Fin 2) * 1024 + 1 * p.val = t.val * 1024 + p.val; rw [e0]; omega
  | ⟨1, _⟩ => show win0_0.index t (1 : Fin 2) * 256 + 1 * d.val = d.val; rw [e1]; omega

/-! Every other window is staged whole: its block at any point is its array. -/

theorem B1_eq (c : Dev nD) (t : Fin cfg0.N) : B1 m c t = W1 m c := by
  have e := (idx_facts t).2.2.2.2.1
  funext y
  show V m c main_v1 (((cfg0.win 1).blk t).view.emb y) = V m c main_v1 y
  refine congrArg (V m c main_v1) ?_
  funext a; apply Fin.ext
  match a with
  | ⟨0, _⟩ => show win0_1.index t (0 : Fin 2) * 256 + 1 * (y 0).val = (y 0).val; rw [e 0]; omega
  | ⟨1, _⟩ => show win0_1.index t (1 : Fin 2) * 1024 + 1 * (y 1).val = (y 1).val; rw [e 1]; omega

theorem B2_eq (c : Dev nD) (t : Fin cfg0.N) : B2 m c t = W2 m c := by
  have e := (idx_facts t).2.2.2.2.2.1
  funext y
  show V m c main_v10 (((cfg0.win 2).blk t).view.emb y) = V m c main_v10 y
  refine congrArg (V m c main_v10) ?_
  funext a; apply Fin.ext
  match a with
  | ⟨0, _⟩ => show win0_2.index t (0 : Fin 2) * 1 + 1 * (y 0).val = (y 0).val; rw [e 0]; omega
  | ⟨1, _⟩ => show win0_2.index t (1 : Fin 2) * 1024 + 1 * (y 1).val = (y 1).val; rw [e 1]; omega

theorem B3_eq (c : Dev nD) (t : Fin cfg0.N) : B3 m c t = W3 m c := by
  have e := (idx_facts t).2.2.2.2.2.2.1
  funext y
  show V m c main_v19 (((cfg0.win 3).blk t).view.emb y) = V m c main_v19 y
  refine congrArg (V m c main_v19) ?_
  funext a; apply Fin.ext
  match a with
  | ⟨0, _⟩ => show win0_3.index t (0 : Fin 2) * 1 + 1 * (y 0).val = (y 0).val; rw [e 0]; omega
  | ⟨1, _⟩ => show win0_3.index t (1 : Fin 2) * 1024 + 1 * (y 1).val = (y 1).val; rw [e 1]; omega

theorem B4_eq (c : Dev nD) (t : Fin cfg0.N) : B4 m c t = W4 m c := by
  have e := (idx_facts t).2.2.2.2.2.2.2.1
  funext y
  show V m c main_v5 (((cfg0.win 4).blk t).view.emb y) = V m c main_v5 y
  refine congrArg (V m c main_v5) ?_
  funext a; apply Fin.ext
  match a with
  | ⟨0, _⟩ => show win0_4.index t (0 : Fin 2) * 1024 + 1 * (y 0).val = (y 0).val; rw [e 0]; omega
  | ⟨1, _⟩ => show win0_4.index t (1 : Fin 2) * 32 + 1 * (y 1).val = (y 1).val; rw [e 1]; omega

theorem B5_eq (c : Dev nD) (t : Fin cfg0.N) : B5 m c t = W5 m c := by
  have e := (idx_facts t).2.2.2.2.2.2.2.2.1
  funext y
  show V m c main_v26 (((cfg0.win 5).blk t).view.emb y) = V m c main_v26 y
  refine congrArg (V m c main_v26) ?_
  funext a; apply Fin.ext
  match a with
  | ⟨0, _⟩ => show win0_5.index t (0 : Fin 2) * 1 + 1 * (y 0).val = (y 0).val; rw [e 0]; omega
  | ⟨1, _⟩ => show win0_5.index t (1 : Fin 2) * 32 + 1 * (y 1).val = (y 1).val; rw [e 1]; omega

theorem B6_eq (c : Dev nD) (t : Fin cfg0.N) : B6 m c t = W6 m c := by
  have e := (idx_facts t).2.2.2.2.2.2.2.2.2.1
  funext y
  show V m c main_v3 (((cfg0.win 6).blk t).view.emb y) = V m c main_v3 y
  refine congrArg (V m c main_v3) ?_
  funext a; apply Fin.ext
  match a with
  | ⟨0, _⟩ => show win0_6.index t (0 : Fin 2) * 256 + 1 * (y 0).val = (y 0).val; rw [e 0]; omega
  | ⟨1, _⟩ => show win0_6.index t (1 : Fin 2) * 1024 + 1 * (y 1).val = (y 1).val; rw [e 1]; omega

theorem B7_eq (c : Dev nD) (t : Fin cfg0.N) : B7 m c t = W7 m c := by
  have e := (idx_facts t).2.2.2.2.2.2.2.2.2.2.1
  funext y
  show V m c main_v13 (((cfg0.win 7).blk t).view.emb y) = V m c main_v13 y
  refine congrArg (V m c main_v13) ?_
  funext a; apply Fin.ext
  match a with
  | ⟨0, _⟩ => show win0_7.index t (0 : Fin 2) * 1 + 1 * (y 0).val = (y 0).val; rw [e 0]; omega
  | ⟨1, _⟩ => show win0_7.index t (1 : Fin 2) * 1024 + 1 * (y 1).val = (y 1).val; rw [e 1]; omega

theorem B8_eq (c : Dev nD) (t : Fin cfg0.N) : B8 m c t = W8 m c := by
  have e := (idx_facts t).2.2.2.2.2.2.2.2.2.2.2.1
  funext y
  show V m c main_v25 (((cfg0.win 8).blk t).view.emb y) = V m c main_v25 y
  refine congrArg (V m c main_v25) ?_
  funext a; apply Fin.ext
  match a with
  | ⟨0, _⟩ => show win0_8.index t (0 : Fin 2) * 1 + 1 * (y 0).val = (y 0).val; rw [e 0]; omega
  | ⟨1, _⟩ => show win0_8.index t (1 : Fin 2) * 1024 + 1 * (y 1).val = (y 1).val; rw [e 1]; omega

theorem B9_eq (c : Dev nD) (t : Fin cfg0.N) : B9 m c t = W9 m c := by
  have e := (idx_facts t).2.2.2.2.2.2.2.2.2.2.2.2.1
  funext y
  show V m c main_v7 (((cfg0.win 9).blk t).view.emb y) = V m c main_v7 y
  refine congrArg (V m c main_v7) ?_
  funext a; apply Fin.ext
  match a with
  | ⟨0, _⟩ => show win0_9.index t (0 : Fin 2) * 1024 + 1 * (y 0).val = (y 0).val; rw [e 0]; omega
  | ⟨1, _⟩ => show win0_9.index t (1 : Fin 2) * 32 + 1 * (y 1).val = (y 1).val; rw [e 1]; omega

theorem B10_eq (c : Dev nD) (t : Fin cfg0.N) : B10 m c t = W10 m c := by
  have e := (idx_facts t).2.2.2.2.2.2.2.2.2.2.2.2.2
  funext y
  show V m c main_v27 (((cfg0.win 10).blk t).view.emb y) = V m c main_v27 y
  refine congrArg (V m c main_v27) ?_
  funext a; apply Fin.ext
  match a with
  | ⟨0, _⟩ => show win0_10.index t (0 : Fin 2) * 1 + 1 * (y 0).val = (y 0).val; rw [e 0]; omega
  | ⟨1, _⟩ => show win0_10.index t (1 : Fin 2) * 32 + 1 * (y 1).val = (y 1).val; rw [e 1]; omega

/-- WHAT POINT t WRITES BACK is block t of the result function of the argument arrays, when no width is zero. -/
theorem flushed_eq (c : Dev nD) (hs1 : ∀ k : Fin 1024, A2 m c (ix1 k) ≠ 0) (hs2 : ∀ k : Fin 1024, A6 m c (ix1 k) ≠ 0)
    (t : Fin cfg0.N) :
    (dats m 0 c).flushed 11 t = ((cfg0.win 11).blk t).view.read (Elt Ideal) (G (A0 m c) (A1 m c) (A2 m c) (A3 m c) (A4 m c) (A5 m c) (A6 m c) (A7 m c) (A8 m c)) := by
  rw [Value.flushed11]
  unfold out0_11
  rw [View.canon_unit_zero hz]
  simp only [View.ld_unit_zero (S := S1024x256) hz, View.ld_unit_zero (S := S256x1024) hz, View.ld_unit_zero (S := S1x1024) hz,
    View.ld_unit_zero (S := S1024x32) hz, View.ld_unit_zero (S := S1x32) hz]
  funext j
  obtain ⟨p, q, rfl⟩ : ∃ (p : Fin 1024) (q : Fin 64), j = ix2 p q := ⟨j 0, j 1, eq_ix2 j⟩
  obtain ⟨-, -, e0, e1, -⟩ := idx_facts t
  have hemb : ((cfg0.win 11).blk t).view.emb (ix2 p q) = (ix2 (row t p) q : S32768x64.Idx) := by
    funext a; apply Fin.ext
    match a with
    | ⟨0, _⟩ => show win0_11.index t (0 : Fin 2) * 1024 + 1 * p.val = t.val * 1024 + p.val; rw [e0]; omega
    | ⟨1, _⟩ => show win0_11.index t (1 : Fin 2) * 64 + 1 * q.val = q.val; rw [e1]; omega
  show k0_pay1 (F := Ideal) (k0_pay4 (B0 m c t) (B1 m c t) (B2 m c t) (B3 m c t) (B4 m c t) (B5 m c t))
      (k0_pay5 (B0 m c t) (B6 m c t)) (B7 m c t) (B8 m c t) (B9 m c t) (B10 m c t) (ix2 p q)
    = G (A0 m c) (A1 m c) (A2 m c) (A3 m c) (A4 m c) (A5 m c) (A6 m c) (A7 m c) (A8 m c) (((cfg0.win 11).blk t).view.emb (ix2 p q))
  rw [hemb]
  by_cases hq : q.val < 32
  · rw [G_left _ _ _ _ _ _ _ _ _ (row t p) q hq]
    refine (Ker.pay1_apply_left _ _ _ _ _ _ p q hq).trans ?_
    refine (Ker.pay4_apply (B0 m c t) (B1 m c t) (B2 m c t) (B3 m c t) (B4 m c t) (B5 m c t) p ⟨q.val, hq⟩).trans ?_
    exact head_eq (A0 m c) (A1 m c) (A2 m c) (A3 m c) (A4 m c) (B0 m c t) (B1 m c t) (B2 m c t) (B3 m c t) (B4 m c t) (B5 m c t)
      (row t p) p ⟨q.val, hq⟩ (fun d => B0_apply m c t p d) (fun d k => by rw [B1_eq]; exact W1_apply m c d k)
      (fun k => by rw [B2_eq]; exact W2_apply m c k) (fun k => by rw [B3_eq]; exact W3_apply m c k)
      (fun k => by rw [B4_eq]; exact W4_apply m c k _) (by rw [B5_eq]; exact W5_apply m c _) hs1
  · have hq' : 32 ≤ q.val := Nat.le_of_not_lt hq
    rw [G_right _ _ _ _ _ _ _ _ _ (row t p) q hq']
    refine (Ker.pay1_apply_right _ (B0 m c t) (B6 m c t) (B7 m c t) (B8 m c t) (B9 m c t) (B10 m c t) p q hq').trans ?_
    exact congrArg clipExp (head_eq (A0 m c) (A5 m c) (A6 m c) (A7 m c) (A8 m c) (B0 m c t) (B6 m c t) (B7 m c t) (B8 m c t)
      (B9 m c t) (B10 m c t) (row t p) p ⟨q.val - 32, by have := q.isLt; omega⟩ (fun d => B0_apply m c t p d)
      (fun d k => by rw [B6_eq]; exact W6_apply m c d k) (fun k => by rw [B7_eq]; exact W7_apply m c k)
      (fun k => by rw [B8_eq]; exact W8_apply m c k) (fun k => by rw [B9_eq]; exact W9_apply m c k _)
      (by rw [B10_eq]; exact W10_apply m c _) hs2)

/-- An index of the result is in point t's block iff each coordinate is in the block's range on its axis. -/
theorem mem_blk (t : Fin cfg0.N) (i : S32768x64.Idx) :
    i ∈ ((cfg0.win 11).blk t).view.set ↔ ∀ a : Fin 2, win0_11.index t a * S1024x64.size a ≤ (i a).val
      ∧ (i a).val < win0_11.index t a * S1024x64.size a + S1024x64.size a := by
  show i ∈ ((View.whole main_v28).slice (win0_11.rect t)).set ↔ _
  rw [View.set_slice_whole, Rect.mem_set_unit]
  exact Iff.rfl

/-- Every index of the result lies in the block of the point that handles its row: t = row / 1024. -/
theorem cover (i : S32768x64.Idx) :
    ∃ t : Fin cfg0.N, (cfg0.win 11).flush t = true ∧ i ∈ ((cfg0.win 11).blk t).view.set := by
  have hi0 : (i 0).val < 32768 := (i 0).isLt
  have hi1 : (i 1).val < 64 := (i 1).isLt
  obtain ⟨t, ht⟩ : ∃ t : Fin cfg0.N, t.val = (i 0).val / 1024 :=
    ⟨⟨(i 0).val / 1024, by rw [show cfg0.N = 32 from N_0]; omega⟩, rfl⟩
  obtain ⟨-, -, e0, e1, -⟩ := idx_facts t
  refine ⟨t, flush0_11 t, ?_⟩
  rw [mem_blk]
  intro a
  match a with
  | ⟨0, _⟩ =>
    show win0_11.index t (0 : Fin 2) * 1024 ≤ (i 0).val ∧ (i 0).val < win0_11.index t (0 : Fin 2) * 1024 + 1024
    rw [e0, ht]; omega
  | ⟨1, _⟩ =>
    show win0_11.index t (1 : Fin 2) * 64 ≤ (i 1).val ∧ (i 1).val < win0_11.index t (1 : Fin 2) * 64 + 64
    rw [e1]; omega

/-- THE RESULT ARRAY after the run is the result function of the argument arrays. -/
theorem final (c : Dev nD) (hs1 : ∀ k : Fin 1024, A2 m c (ix1 k) ≠ 0) (hs2 : ∀ k : Fin 1024, A6 m c (ix1 k) ≠ 0) :
    (dats m 0 c).arrAt 11 cfg0.N = G (A0 m c) (A1 m c) (A2 m c) (A3 m c) (A4 m c) (A5 m c) (A6 m c) (A7 m c) (A8 m c) :=
  (dats m 0 c).arrAt_eq_of_cover 11 (G (A0 m c) (A1 m c) (A2 m c) (A3 m c) (A4 m c) (A5 m c) (A6 m c) (A7 m c) (A8 m c)) (fun t _ => flushed_eq m c hs1 hs2 t) cover

/-- The kernel's run: it ends with the result array at the result function and the arguments unchanged. -/
theorem run (hs1 : ∀ (c : Dev nD) (k : Fin 1024), A2 m c (ix1 k) ≠ 0) (hs2 : ∀ (c : Dev nD) (k : Fin 1024), A6 m c (ix1 k) ≠ 0) :
    θ_run defs (onTc (τ := τ) (main (F := Ideal))) ⟨m, fun _ => 0, ρ⟩ fun r => ∀ c : Dev nD,
      r.2.mem ((c : Thread nD τ).loc main_v28) = G (A0 m c) (A1 m c) (A2 m c) (A3 m c) (A4 m c) (A5 m c) (A6 m c) (A7 m c) (A8 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hs1 c) (hs2 c)), (h c).2⟩) (Value.run_blocks m ρ)

end Cert.Rbf.KerRun

end
-- ==== Proof.RefHead.lean ====
/-
  The reference's two heads and their join, read at one entry.

  Row r, action a of a head is  Σ_k exp((-r_k) / (2·|σ_k|)) · W[a,k] + b[a]  with
  r_k = (|x_r|² - 2·Σ_d x[r,d]·C[k,d]) + |C_k|²; the sums the host starts from zero are the plain sums.
  The result joins the mean head with the exponential of the clipped deviation head along the columns.
-/
import proofs.«142655_j50379966382218_1_alg».proof.Proof.Gen.ReferenceIdeal.Read
import proofs.«142655_j50379966382218_1_alg».proof.Proof.RbfSpec
import Idealize.ShloMosaic.Lib.Pipeline.Value
import Idealize.ShloMosaic.Lib.ValueLayout

noncomputable section

namespace Cert.Rbf.Ref

open Cert.ReferenceIdeal Cert.ReferenceIdeal.Gen Idealize.ShloMosaic Idealize.ShloMosaic.ValueIdx Cert.Rbf
open Cert.ReferenceIdeal.Read

/-! Index equations. Each stage of the reference reads its operand at an index computed from the result's index;
    composed along a path from the head's entry (r, a) and a summation index down to an argument, the index is the
    plain pair (or single coordinate) named on the right. First head. -/

private theorem e_x2 (r : Fin 32768) (a : Fin 32) (k : Fin 1024) (d : Fin 256) :
    idx_main_v1 (idx_main_v2 (idx_main_v10 (lidx_main_v23 (ix2 r a) k))) d = ix2 r d :=
  funext fun a => Fin.ext (by match a with | ⟨0, _⟩ => rfl | ⟨1, _⟩ => rfl)

private theorem e_xl (r : Fin 32768) (a : Fin 32) (k : Fin 1024) (d : Fin 256) :
    lidx_main_v7 (lidx_main_v23 (ix2 r a) k) d = ix2 r d :=
  funext fun a => Fin.ext (by match a with | ⟨0, _⟩ => rfl | ⟨1, _⟩ => rfl)

private theorem e_cr (r : Fin 32768) (a : Fin 32) (k : Fin 1024) (d : Fin 256) :
    idx_main_v6 (ridx_main_v7 (lidx_main_v23 (ix2 r a) k) d) = ix2 k d :=
  funext fun a => Fin.ext (by match a with | ⟨0, _⟩ => rfl | ⟨1, _⟩ => rfl)

private theorem e_c2 (r : Fin 32768) (a : Fin 32) (k : Fin 1024) (d : Fin 256) :
    idx_main_v4 (idx_main_v5 (idx_main_v12 (lidx_main_v23 (ix2 r a) k))) d = ix2 k d :=
  funext fun a => Fin.ext (by match a with | ⟨0, _⟩ => rfl | ⟨1, _⟩ => rfl)

private theorem e_sg (r : Fin 32768) (a : Fin 32) (k : Fin 1024) :
    idx_main_v16 (idx_main_v19 (lidx_main_v23 (ix2 r a) k)) = ix1 k :=
  funext fun a => Fin.ext (by match a with | ⟨0, _⟩ => rfl)

private theorem e_w (r : Fin 32768) (a : Fin 32) (k : Fin 1024) :
    idx_main_v22 (ridx_main_v23 (ix2 r a) k) = ix2 a k :=
  funext fun a => Fin.ext (by match a with | ⟨0, _⟩ => rfl | ⟨1, _⟩ => rfl)

private theorem e_b (r : Fin 32768) (a : Fin 32) :
    idx_main_v24 (idx_main_v25 (ix2 r a)) = ix1 a :=
  funext fun a => Fin.ext (by match a with | ⟨0, _⟩ => rfl)

/-! The same equations for the second head's stages. -/

private theorem f_x2 (r : Fin 32768) (a : Fin 32) (k : Fin 1024) (d : Fin 256) :
    idx_main_v28 (idx_main_v29 (idx_main_v37 (lidx_main_v50 (ix2 r a) k))) d = ix2 r d :=
  funext fun a => Fin.ext (by match a with | ⟨0, _⟩ => rfl | ⟨1, _⟩ => rfl)

private theorem f_xl (r : Fin 32768) (a : Fin 32) (k : Fin 1024) (d : Fin 256) :
    lidx_main_v34 (lidx_main_v50 (ix2 r a) k) d = ix2 r d :=
  funext fun a => Fin.ext (by match a with | ⟨0, _⟩ => rfl | ⟨1, _⟩ => rfl)

private theorem f_cr (r : Fin 32768) (a : Fin 32) (k : Fin 1024) (d : Fin 256) :
    idx_main_v33 (ridx_main_v34 (lidx_main_v50 (ix2 r a) k) d) = ix2 k d :=
  funext fun a => Fin.ext (by match a with | ⟨0, _⟩ => rfl | ⟨1, _⟩ => rfl)

private theorem f_c2 (r : Fin 32768) (a : Fin 32) (k : Fin 1024) (d : Fin 256) :
    idx_main_v31 (idx_main_v32 (idx_main_v39 (lidx_main_v50 (ix2 r a) k))) d = ix2 k d :=
  funext fun a => Fin.ext (by match a with | ⟨0, _⟩ => rfl | ⟨1, _⟩ => rfl)

private theorem f_sg (r : Fin 32768) (a : Fin 32) (k : Fin 1024) :
    idx_main_v43 (idx_main_v46 (lidx_main_v50 (ix2 r a) k)) = ix1 k :=
  funext fun a => Fin.ext (by match a with | ⟨0, _⟩ => rfl)

private theorem f_w (r : Fin 32768) (a : Fin 32) (k : Fin 1024) :
    idx_main_v49 (ridx_main_v50 (ix2 r a) k) = ix2 a k :=
  funext fun a => Fin.ext (by match a with | ⟨0, _⟩ => rfl | ⟨1, _⟩ => rfl)

private theorem f_b (r : Fin 32768) (a : Fin 32) :
    idx_main_v51 (idx_main_v52 (ix2 r a)) = ix1 a :=
  funext fun a => Fin.ext (by match a with | ⟨0, _⟩ => rfl)

/-- The mean head at row r, action a. -/
theorem mean_apply (x0 : (⟨S32768x256, .f32⟩ : BufTy).Contents (Elt Ideal)) (x1 : (⟨S1024x256, .f32⟩ : BufTy).Contents (Elt Ideal)) (x2 : (⟨S1024, .f32⟩ : BufTy).Contents (Elt Ideal))
    (x3 : (⟨S32x1024, .f32⟩ : BufTy).Contents (Elt Ideal)) (x4 : (⟨S32, .f32⟩ : BufTy).Contents (Elt Ideal)) (r : Fin 32768) (a : Fin 32) :
    val_main_v26 (F := Ideal) x0 x1 x2 x3 x4 (ix2 r a)
      = headDiv (∑ d : Fin 256, x0 (ix2 r d) * x0 (ix2 r d)) (fun k : Fin 1024 => ∑ d : Fin 256, x0 (ix2 r d) * x1 (ix2 k d))
          (fun k => ∑ d : Fin 256, x1 (ix2 k d) * x1 (ix2 k d)) (fun k => two * max (x2 (ix1 k)) (-(x2 (ix1 k))))
          (fun k => x3 (ix2 a k)) (x4 (ix1 a)) := by
  simp only [val_main_v26_apply, val_main_v23_apply, val_main_v25_apply, val_main_v24_apply, val_main_v22_apply,
    val_main_v21_apply, val_main_v20_apply, val_main_v14_apply, val_main_v13_apply, val_main_v11_apply, val_main_v10_apply,
    val_main_v2_apply, val_main_v1_apply, val_main_cst_apply, val_main_v0_apply, val_main_v9_apply, val_main_v8_apply, val_main_cst_1_apply,
    val_main_v7_apply, val_main_v6_apply, val_main_v12_apply, val_main_v5_apply, val_main_v4_apply, val_main_cst_0_apply, val_main_v3_apply,
    val_main_v19_apply, val_main_v18_apply, val_main_v17_apply, val_main_cst_2_apply, val_main_v16_apply, val_main_v15_apply]
  simp only [e_x2, e_xl, e_cr, e_c2, e_sg, e_w, e_b, Ideal.addf_def, Ideal.subf_def, Ideal.mulf_def, Ideal.hostDivf_def,
    Ideal.hostNegf_def, Ideal.negf_def, Ideal.hostAbsf_def, Ideal.absf_def, Ideal.hostUnary_exp_def, Ideal.ofBits_def,
    Ideal.ofBits_zero_f32, zero_add]
  unfold headDiv
  rfl

/-- The exponential of the clipped deviation head at row r, action a. -/
theorem std_apply (x0 : (⟨S32768x256, .f32⟩ : BufTy).Contents (Elt Ideal)) (x5 : (⟨S1024x256, .f32⟩ : BufTy).Contents (Elt Ideal)) (x6 : (⟨S1024, .f32⟩ : BufTy).Contents (Elt Ideal))
    (x7 : (⟨S32x1024, .f32⟩ : BufTy).Contents (Elt Ideal)) (x8 : (⟨S32, .f32⟩ : BufTy).Contents (Elt Ideal)) (r : Fin 32768) (a : Fin 32) :
    val_main_v55 (F := Ideal) x0 x5 x6 x7 x8 (ix2 r a)
      = clipExp (headDiv (∑ d : Fin 256, x0 (ix2 r d) * x0 (ix2 r d)) (fun k : Fin 1024 => ∑ d : Fin 256, x0 (ix2 r d) * x5 (ix2 k d))
          (fun k => ∑ d : Fin 256, x5 (ix2 k d) * x5 (ix2 k d)) (fun k => two * max (x6 (ix1 k)) (-(x6 (ix1 k))))
          (fun k => x7 (ix2 a k)) (x8 (ix1 a))) := by
  simp only [val_main_v55_apply, val_main_v54_apply, val_main_call0_v4_apply, val_main_call0_v3_apply, val_main_cst_8_apply,
    val_main_call0_v2_apply, val_main_call0_v1_apply, val_main_call0_v0_apply, val_main_cst_7_apply,
    val_main_v53_apply, val_main_v50_apply, val_main_v52_apply, val_main_v51_apply, val_main_v49_apply,
    val_main_v48_apply, val_main_v47_apply, val_main_v41_apply, val_main_v40_apply, val_main_v38_apply, val_main_v37_apply,
    val_main_v29_apply, val_main_v28_apply, val_main_cst_3_apply, val_main_v27_apply, val_main_v36_apply, val_main_v35_apply, val_main_cst_5_apply,
    val_main_v34_apply, val_main_v33_apply, val_main_v39_apply, val_main_v32_apply, val_main_v31_apply, val_main_cst_4_apply, val_main_v30_apply,
    val_main_v46_apply, val_main_v45_apply, val_main_v44_apply, val_main_cst_6_apply, val_main_v43_apply, val_main_v42_apply]
  simp only [f_x2, f_xl, f_cr, f_c2, f_sg, f_w, f_b, Ideal.addf_def, Ideal.subf_def, Ideal.mulf_def, Ideal.hostDivf_def,
    Ideal.hostNegf_def, Ideal.negf_def, Ideal.hostAbsf_def, Ideal.absf_def, Ideal.hostUnary_exp_def, Ideal.ofBits_def,
    Ideal.maximumf_def, Ideal.minimumf_def, Ideal.ofBits_zero_f32, zero_add]
  unfold clipExp headDiv
  rfl

/-- The first 32 columns of the result are the mean head. -/
theorem result_left (x0 : (⟨S32768x256, .f32⟩ : BufTy).Contents (Elt Ideal)) (x1 : (⟨S1024x256, .f32⟩ : BufTy).Contents (Elt Ideal)) (x2 : (⟨S1024, .f32⟩ : BufTy).Contents (Elt Ideal))
    (x3 : (⟨S32x1024, .f32⟩ : BufTy).Contents (Elt Ideal)) (x4 : (⟨S32, .f32⟩ : BufTy).Contents (Elt Ideal)) (x5 : (⟨S1024x256, .f32⟩ : BufTy).Contents (Elt Ideal)) (x6 : (⟨S1024, .f32⟩ : BufTy).Contents (Elt Ideal))
    (x7 : (⟨S32x1024, .f32⟩ : BufTy).Contents (Elt Ideal)) (x8 : (⟨S32, .f32⟩ : BufTy).Contents (Elt Ideal)) (r : Fin 32768) (q : Fin 64) (hq : q.val < 32) :
    val_main_v56 (F := Ideal) x0 x1 x2 x3 x4 x5 x6 x7 x8 (ix2 r q) = val_main_v26 (F := Ideal) x0 x1 x2 x3 x4 (ix2 r ⟨q.val, hq⟩) := by
  unfold val_main_v56
  exact concatenate_pair_apply_left 1 _ _ concatenates_S32768x32_S32768x32_S32768x64_d1 (ix2 r q) rfl (ix2 r ⟨q.val, hq⟩)
    (fun b => match b with | ⟨0, _⟩ => rfl | ⟨1, _⟩ => rfl)

/-- The last 32 columns of the result are the deviation branch. -/
theorem result_right (x0 : (⟨S32768x256, .f32⟩ : BufTy).Contents (Elt Ideal)) (x1 : (⟨S1024x256, .f32⟩ : BufTy).Contents (Elt Ideal)) (x2 : (⟨S1024, .f32⟩ : BufTy).Contents (Elt Ideal))
    (x3 : (⟨S32x1024, .f32⟩ : BufTy).Contents (Elt Ideal)) (x4 : (⟨S32, .f32⟩ : BufTy).Contents (Elt Ideal)) (x5 : (⟨S1024x256, .f32⟩ : BufTy).Contents (Elt Ideal)) (x6 : (⟨S1024, .f32⟩ : BufTy).Contents (Elt Ideal))
    (x7 : (⟨S32x1024, .f32⟩ : BufTy).Contents (Elt Ideal)) (x8 : (⟨S32, .f32⟩ : BufTy).Contents (Elt Ideal)) (r : Fin 32768) (q : Fin 64) (hq : 32 ≤ q.val) :
    val_main_v56 (F := Ideal) x0 x1 x2 x3 x4 x5 x6 x7 x8 (ix2 r q)
      = val_main_v55 (F := Ideal) x0 x5 x6 x7 x8 (ix2 r ⟨q.val - 32, by omega⟩) := by
  unfold val_main_v56
  exact concatenate_pair_apply_right 1 _ _ concatenates_S32768x32_S32768x32_S32768x64_d1 (ix2 r q) rfl rfl (ix2 r ⟨q.val - 32, by omega⟩)
    (fun b hb => match b, hb with | ⟨0, _⟩, _ => rfl | ⟨1, _⟩, hb => absurd rfl hb)
    (by show (q.val - 32) + 32 = q.val; omega)

end Cert.Rbf.Ref

end
-- ==== Proof.RefWhole.lean ====
/-
  The reference's result is the result function of its arguments: entry (r, q) is the mean head for q < 32 and
  the exponential of the clipped deviation head for q ≥ 32, each head in its quotient spelling.
-/
import proofs.«142655_j50379966382218_1_alg».proof.Proof.RefHead
import proofs.«142655_j50379966382218_1_alg».proof.Proof.RbfWhole

noncomputable section

namespace Cert.Rbf.Ref

open Cert.ReferenceIdeal Cert.ReferenceIdeal.Gen Idealize.ShloMosaic Idealize.ShloMosaic.ValueIdx Cert.Rbf
open Cert.ReferenceIdeal.Read

/-- The last stage of the reference, index by index, is the result function. -/
theorem result_eq (x0 : (⟨S32768x256, .f32⟩ : BufTy).Contents (Elt Ideal)) (x1 : (⟨S1024x256, .f32⟩ : BufTy).Contents (Elt Ideal)) (x2 : (⟨S1024, .f32⟩ : BufTy).Contents (Elt Ideal))
    (x3 : (⟨S32x1024, .f32⟩ : BufTy).Contents (Elt Ideal)) (x4 : (⟨S32, .f32⟩ : BufTy).Contents (Elt Ideal)) (x5 : (⟨S1024x256, .f32⟩ : BufTy).Contents (Elt Ideal)) (x6 : (⟨S1024, .f32⟩ : BufTy).Contents (Elt Ideal))
    (x7 : (⟨S32x1024, .f32⟩ : BufTy).Contents (Elt Ideal)) (x8 : (⟨S32, .f32⟩ : BufTy).Contents (Elt Ideal)) :
    val_main_v56 (F := Ideal) x0 x1 x2 x3 x4 x5 x6 x7 x8 = G x0 x1 x2 x3 x4 x5 x6 x7 x8 := by
  funext i
  obtain ⟨r, q, rfl⟩ : ∃ (r : Fin 32768) (q : Fin 64), i = ix2 r q := ⟨i 0, i 1, eq_ix2 i⟩
  by_cases hq : q.val < 32
  · rw [result_left x0 x1 x2 x3 x4 x5 x6 x7 x8 r q hq, mean_apply, G_left x0 x1 x2 x3 x4 x5 x6 x7 x8 r q hq]
    rfl
  · have hq' : 32 ≤ q.val := Nat.le_of_not_lt hq
    rw [result_right x0 x1 x2 x3 x4 x5 x6 x7 x8 r q hq', std_apply, G_right x0 x1 x2 x3 x4 x5 x6 x7 x8 r q hq']
    rfl

end Cert.Rbf.Ref

end
-- ==== Proof.PreDecode.lean ====
/-
  The widths are nonzero: read out of the stated precondition.

  The precondition is a conjunction; its last two conjuncts say that every entry of each width vector differs
  from zero.  A conjunction of bits that is one has every conjunct one, and an all-reduction by "and" that is
  one has every entry one.
-/
import proofs.«142655_j50379966382218_1_alg».proof.Pre_finite_inputs
import proofs.«142655_j50379966382218_1_alg».proof.Proof.Gen.Pre_finite_inputs
import Idealize.ShloMosaic.PureOps.Ideal.Laws
import Idealize.ShloMosaic.Lib.ValueIdx
import Idealize.ShloMosaic.Lib.ReduceAll

noncomputable section

namespace Cert.Rbf.PreDecode

open Idealize.ShloMosaic Idealize.ShloMosaic.ValueIdx Cert.Pre_finite_inputs

/-- A bit made from a Boolean is one exactly when the Boolean is true. -/
private theorem ofBool_eq_one {b : Bool} : BitVec.ofBool b = 1#1 ↔ b = true := by cases b <;> decide

/-- The rank-0 shape has one index. -/
theorem subsingleton_S_Idx : Subsingleton S_.Idx := ⟨fun a b => funext fun d => d.elim0⟩

/-- The bit "x k differs from the zero constant, broadcast" being one says x k is not zero: the comparison at exact
    values is the decision of x k ≠ c, and the constant c is the exact value of the all-zero word, 0. -/
theorem une_zero (x : FVec Ideal S1024 .f32) (k : Fin 1024) (hb : S_.BroadcastsInDim S1024 (![] : Fin 0 → Fin S1024.rank))
    (e : cmpf .une x (broadcastInDim S1024 ![] hb (constant (F := Ideal) S_ .f32 0x00000000#32)) (ix1 k) = 1#1) :
    x (ix1 k) ≠ 0 := by
  have e' : BitVec.ofBool (decide (x (ix1 k) ≠ Ideal.ofBits .f32 0x00000000#32)) = 1#1 := e
  rw [Ideal.ofBits_zero_f32, ofBool_eq_one] at e'
  exact of_decide_eq_true e'

/-- Under the precondition no entry of either width vector is zero. -/
theorem sigma_ne_zero [Cert.Pre_finite_inputs.Facts] (a0 : FVec Ideal S32768x256 .f32) (a1 : FVec Ideal S1024x256 .f32) (a2 : FVec Ideal S1024 .f32)
    (a3 : FVec Ideal S32x1024 .f32) (a4 : FVec Ideal S32 .f32) (a5 : FVec Ideal S1024x256 .f32) (a6 : FVec Ideal S1024 .f32)
    (a7 : FVec Ideal S32x1024 .f32) (a8 : FVec Ideal S32 .f32)
    (h : Cert.Pre_finite_inputs.fn (F := Ideal) a0 a1 a2 a3 a4 a5 a6 a7 a8 = fun _ => 1#1) :
    (∀ k : Fin 1024, a2 (ix1 k) ≠ 0) ∧ (∀ k : Fin 1024, a6 (ix1 k) ≠ 0) := by
  have h0 := congrFun h ValueIdx.ix0
  dsimp only [fn, fn_part1, fn_part2, fn_part3] at h0
  -- the outermost conjunction: (everything before ∧ all (a2 ≠ 0)) ∧ all (a6 ≠ 0)
  obtain ⟨h1, h6⟩ := IntOp.andi_eq_one.1 h0
  obtain ⟨-, h2⟩ := IntOp.andi_eq_one.1 h1
  haveI := subsingleton_S_Idx
  exact ⟨fun k => une_zero a2 k _ (Host.reduce_andi_all _ _ _ _ _ h2 (ix1 k)),
    fun k => une_zero a6 k _ (Host.reduce_andi_all _ _ _ _ _ h6 (ix1 k))⟩

end Cert.Rbf.PreDecode

end
-- ==== Proof.lean ====
/-
  Two radial-basis heads over 32768 observations, 1024 centres and 32 actions: the kernel against its reference,
  at exact values.

  Each head is  out[r,a] = Σ_k φ[r,k]·W[a,k] + b[a]  with  φ[r,k] = exp(-d[r,k] / (2·|σ_k|))  and
  d[r,k] = (|x_r|² - 2·⟨x_r, C_k⟩) + |C_k|².  The result joins the mean head with the exponential of the deviation
  head clipped to [-20, 2].  The reference divides the negated distance by 2·|σ_k|; the kernel multiplies it by the
  reciprocal 1/(2·|σ_k|) computed beforehand, with the centres and weights transposed beforehand, and works on blocks
  of 1024 observation rows.  At exact values a change of float format is the identity and a matrix product is the sum
  over the contracted index, so the only difference is  (0 - d)·(1/den)  against  (-d)/den.  Off den = 0 the exact
  quotient is the product with the inverse, so the two agree; at den = 0 (a zero width) the reference's quotient is
  undefined, and the statement's precondition excludes it: every width is nonzero.

  The kernel's run gives the result array as the result function G of the arguments (the 32 blocks tile it); the
  reference's run gives its last stage, which is G index by index.  The frames are the runs with the result dropped.
-/
import proofs.«142655_j50379966382218_1_alg».proof.Defs
import proofs.«142655_j50379966382218_1_alg».proof.Proof.Gen.Kernel
import proofs.«142655_j50379966382218_1_alg».proof.Proof.Gen.Kernel.Skeleton
import proofs.«142655_j50379966382218_1_alg».proof.Proof.Gen.Kernel.Launch
import proofs.«142655_j50379966382218_1_alg».proof.Proof.Gen.Kernel.Points
import proofs.«142655_j50379966382218_1_alg».proof.Proof.Gen.Kernel.Frame
import proofs.«142655_j50379966382218_1_alg».proof.Proof.Gen.KernelIdeal
import proofs.«142655_j50379966382218_1_alg».proof.Proof.Gen.KernelIdeal.Skeleton
import proofs.«142655_j50379966382218_1_alg».proof.Proof.Gen.KernelIdeal.Launch
import proofs.«142655_j50379966382218_1_alg».proof.Proof.Gen.KernelIdeal.Points
import proofs.«142655_j50379966382218_1_alg».proof.Proof.Gen.KernelIdeal.Frame
import proofs.«142655_j50379966382218_1_alg».proof.Proof.Gen.ReferenceIdeal
import proofs.«142655_j50379966382218_1_alg».proof.Proof.Gen.Pre_finite_inputs
import proofs.«142655_j50379966382218_1_alg».proof.Proof.Gen.KernelIdeal.Value
import proofs.«142655_j50379966382218_1_alg».proof.Proof.Gen.ReferenceIdeal.Run
import proofs.«142655_j50379966382218_1_alg».proof.Proof.Gen.ReferenceIdeal.Read
import proofs.«142655_j50379966382218_1_alg».proof.Proof.KerRun
import proofs.«142655_j50379966382218_1_alg».proof.Proof.RefWhole
import proofs.«142655_j50379966382218_1_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result function of the (agreeing) arguments; the precondition's nonzero widths are what
    the kernel's reciprocal spelling needs. -/
theorem algebraic : Cert.algebraic_KernelIdeal_ReferenceIdeal := by
  intro m ρ m' ρ' hpre hagree
  have hs := fun c : Dev Cert.KernelIdeal.nD =>
    Cert.Rbf.PreDecode.sigma_ne_zero (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (hpre c)
  refine ⟨_, Cert.Rbf.KerRun.run m ρ (fun c => (hs c).1) (fun c => (hs c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.Rbf.Ref.result_eq, (hagree c).1, (hagree c).2.1, (hagree c).2.2.1,
    (hagree c).2.2.2.1, (hagree c).2.2.2.2.1, (hagree c).2.2.2.2.2.1, (hagree c).2.2.2.2.2.2.1, (hagree c).2.2.2.2.2.2.2.1,
    (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
